-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024x1024 .f32) (main_arg5 : FVec F S4x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S4096x1024 .f32) (main_arg3 : FVec F S4x1024x1024 .f32) (main_arg4 : FVec F S4x1024x1024 .f32) (main_arg5 : FVec F S4x1024 .f32) (main_arg6 : FVec F S4x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S4096x1024 : Shape := ⟨2, ![4096, 1024]⟩
abbrev S4x1024x1024 : Shape := ⟨3, ![4, 1024, 1024]⟩
abbrev S4x1024 : Shape := ⟨2, ![4, 1024]⟩
abbrev S4096 : Shape := ⟨1, ![4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 19
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4096x1024, .f32⟩
  | .hbm, ⟨8, _⟩ => ⟨S4096x1024, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S1x4096, .f32⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .f32⟩
  | .hbm, ⟨18, _⟩ => ⟨S4096x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S4096x1024, .bf16⟩
  | .local _ .vmem, ⟨5, _⟩ => ⟨S4096x1024, .bf16⟩
  | .local _ .vmem, ⟨6, _⟩ => ⟨S1x4096, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x1024x1024_S4096x1024 : S4x1024x1024.ShapeCasts S4096x1024
  shapeCasts_S4x1024_S4096 : S4x1024.ShapeCasts S4096
  shapeCasts_S4096_S1x4096 : S4096.ShapeCasts S1x4096
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .bf16 = 32 ∨ (Rect.block (s := S4096x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .bf16 = 32 ∨ (Rect.block (s := S4096x1024) S128x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S4096x1024.size a
  hwx0_5 : ∀ i : grid0.Coords, EltTy.bits .f32 = 32 ∨ (Rect.block (s := S4096x1024) S128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S4096x1024.size a
  hwx0_7 : ∀ i : grid0.Coords, EltTy.bits .f32 = 32 ∨ (Rect.block (s := S4096x1024) S128x1024.size (cc0_transform_7 i) (hinb0_7 i)).WholeWords (EltTy.packing .f32)

variable [Facts₀]

def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_v6) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4x1024x1024 : Shape := ⟨3, ![4, 1024, 1024]⟩
abbrev S4x1024 : Shape := ⟨2, ![4, 1024]⟩
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩
abbrev S4096x4x1024 : Shape := ⟨3, ![4096, 4, 1024]⟩
abbrev S4096x1x1024 : Shape := ⟨3, ![4096, 1, 1024]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4096x1024, .f32⟩
  | .hbm, ⟨8, _⟩ => ⟨S1024x4096, .f32⟩
  | .hbm, ⟨9, _⟩ => ⟨S4096x4096, .f32⟩
  | .hbm, ⟨10, _⟩ => ⟨S4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S1024x4096, .f32⟩
  | .hbm, ⟨16, _⟩ => ⟨S4096x4096, .f32⟩
  | .hbm, ⟨17, _⟩ => ⟨S4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4x1024, .f32⟩
  | .hbm, ⟨23, _⟩ => ⟨S4096x1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1x1024, .f32⟩
  | .hbm, ⟨44, _⟩ => ⟨S4096x1024, .f32⟩
  | .hbm, ⟨45, _⟩ => ⟨S4096x1024, .f32⟩
  | .hbm, ⟨46, _⟩ => ⟨S4096x1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]

class Facts₀ : Prop where
  shapeCasts_S4x1024x1024_S4096x1024 : S4x1024x1024.ShapeCasts S4096x1024
  transposes_S4096x1024_S1024x4096_1_0 : S4096x1024.Transposes [1, 0] S1024x4096
  shapeCasts_S4x1024_S4096 : S4x1024.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S4096x4x1024 : S4096x4096.ShapeCasts S4096x4x1024
  slices_S4096x4x1024_S4096x1x1024_0_0_0 : S4096x4x1024.Slices ![0, 0, 0] S4096x1x1024
  shapeCasts_S4096x1x1024_S4096x1024 : S4096x1x1024.ShapeCasts S4096x1024
  bcast_S_S4096x1024 : S_.BroadcastsInDim S4096x1024 (![] : Fin 0 → Fin S4096x1024.rank)
  slices_S4096x4x1024_S4096x1x1024_0_1_0 : S4096x4x1024.Slices ![0, 1, 0] S4096x1x1024
  slices_S4096x4x1024_S4096x1x1024_0_2_0 : S4096x4x1024.Slices ![0, 2, 0] S4096x1x1024
  slices_S4096x4x1024_S4096x1x1024_0_3_0 : S4096x4x1024.Slices ![0, 3, 0] S4096x1x1024
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.CellSpec.lean ====
/-
  The LSTM cell as one function of its arrays, index by index, over the extended reals.

  With x, h the inputs [4096, 1024], wx, wh the stacked gate weights laid flat as [4096, 1024] (row n = 1024·j + q is
  gate j's weight row q) and bx, bh the stacked biases laid flat as [4096], the pre-activation of flat gate column n
  at batch row r is

      gate r n = (Σ_k x[r,k]·wx[n,k] + Σ_k h[r,k]·wh[n,k]) + (bx[n] + bh[n]),

  the gates are i = σ(gate r q), f = σ(gate r (q+1024)), g = tanh(gate r (q+2048)), o = σ(gate r (q+3072)) with
  σ(t) = 1 / (1 + e^(−t)), and

      cellNew r q = f · c[r,q] + i · g,        hidden r q = o · tanh(cellNew r q).

  The other grouping of the pre-activation's four terms, (Σ x·wx + bx) + (Σ h·wh + bh), is the same extended real:
  addition there is commutative and associative with no side condition (`gate_regroup`).
-/
import Idealize.ShloMosaic.PureOps.Ideal
import Idealize.ShloMosaic.PureOps.Ideal.Laws
import Idealize.ShloMosaic.Lib.ValueIdx

noncomputable section

namespace Cert.LstmCell

open Idealize.ShloMosaic Idealize.ShloMosaic.ValueIdx

/-- A [4096, 1024] array of extended reals. -/
abbrev Mat : Type := (⟨2, ![4096, 1024]⟩ : Shape).Idx → EReal
/-- A [4096] array of extended reals. -/
abbrev Row : Type := (⟨1, ![4096]⟩ : Shape).Idx → EReal

/-- The x-side product of batch row `r` with flat weight row `n`. -/
def dotRow (x w : Mat) (r n : Fin 4096) : EReal := ∑ k : Fin 1024, x (ix2 r k) * w (ix2 n k)

/-- The pre-activation of flat gate column `n` at batch row `r`. -/
def gate (x h wx wh : Mat) (bx bh : Row) (r n : Fin 4096) : EReal :=
  (dotRow x wx r n + dotRow h wh r n) + (bx (ix1 n) + bh (ix1 n))

/-- The four terms grouped input by input are the four terms grouped kind by kind. -/
theorem gate_regroup (x h wx wh : Mat) (bx bh : Row) (r n : Fin 4096) :
    (dotRow x wx r n + bx (ix1 n)) + (dotRow h wh r n + bh (ix1 n)) = gate x h wx wh bx bh r n :=
  add_add_add_comm _ _ _ _

/-- Flat gate column `q + off` for a gate whose columns start at `off`. -/
abbrev col (off : Nat) (hoff : off + 1024 ≤ 4096) (q : Fin 1024) : Fin 4096 := ⟨q.val + off, by have := q.isLt; omega⟩

/-- The new cell state at batch row `r`, hidden column `q`. -/
def cellNew (x h c wx wh : Mat) (bx bh : Row) (r : Fin 4096) (q : Fin 1024) : EReal :=
  Ideal.logistic (gate x h wx wh bx bh r (col 1024 (by omega) q)) * c (ix2 r q)
    + Ideal.logistic (gate x h wx wh bx bh r (col 0 (by omega) q)) * Ideal.tanh (gate x h wx wh bx bh r (col 2048 (by omega) q))

/-- The new hidden state at batch row `r`, hidden column `q`. -/
def hidden (x h c wx wh : Mat) (bx bh : Row) (r : Fin 4096) (q : Fin 1024) : EReal :=
  Ideal.logistic (gate x h wx wh bx bh r (col 3072 (by omega) q)) * Ideal.tanh (cellNew x h c wx wh bx bh r q)

/-- The two results as arrays. -/
def cellNewArr (x h c wx wh : Mat) (bx bh : Row) : Mat := fun i => cellNew x h c wx wh bx bh (i 0) (i 1)
def hiddenArr (x h c wx wh : Mat) (bx bh : Row) : Mat := fun i => hidden x h c wx wh bx bh (i 0) (i 1)

/-- The float word of 1.0 is the real 1. -/
theorem ofBits_one_f32 : Ideal.ofBits .f32 0x3F800000#32 = 1 := by
  simp [Ideal.ofBits, Ideal.ieee, -EReal.coe_mul]; norm_num

/-- The sigmoid spelt with a quotient, a sum, an exponential and a negation is the sigmoid. -/
theorem logistic_spelt (t : EReal) : Ideal.div 1 (1 + Ideal.exp (-t)) = Ideal.logistic t := rfl

end Cert.LstmCell

end
-- ==== Proof.RefCell.lean ====
/-
  The reference's two results, index by index, are the cell's specification.

  The reference forms the [4096, 4096] matrix of pre-activations as (x·wxᵀ + bx) + (h·whᵀ + bh) — each product a sum over
  the contraction index, each bias row broadcast down the rows —, views it as [4096, 4, 1024], and takes gate j as the
  slice [·, j, ·]: entry (r, q) of gate j is entry (r, 1024·j + q) of the matrix. The sigmoids are spelt
  1 / (1 + e^(−t)) with the float word of 1.0, which is the real 1.
-/
import proofs.«171886_j48481590837364_1_alg».proof.Proof.Gen.ReferenceIdeal.Read
import proofs.«171886_j48481590837364_1_alg».proof.Proof.CellSpec

noncomputable section

namespace Cert.ReferenceIdeal.CellValue

open Cert.ReferenceIdeal Cert.ReferenceIdeal.Read Idealize.ShloMosaic Idealize.ShloMosaic.ValueIdx Cert.LstmCell

/-- The flat weights and biases the reference reads: the stacked arrays laid flat. -/
abbrev wxFlat (x3 : (⟨S4x1024x1024, .f32⟩ : BufTy).Contents (Elt Ideal)) : Mat := val_main_v0 (F := Ideal) x3
abbrev whFlat (x4 : (⟨S4x1024x1024, .f32⟩ : BufTy).Contents (Elt Ideal)) : Mat := val_main_v7 (F := Ideal) x4
abbrev bxFlat (x5 : (⟨S4x1024, .f32⟩ : BufTy).Contents (Elt Ideal)) : Row := val_main_v3 (F := Ideal) x5
abbrev bhFlat (x6 : (⟨S4x1024, .f32⟩ : BufTy).Contents (Elt Ideal)) : Row := val_main_v10 (F := Ideal) x6

/-- THE MATRIX OF PRE-ACTIVATIONS at (r, n). -/
theorem gates_at (x0 x1 : (⟨S4096x1024, .f32⟩ : BufTy).Contents (Elt Ideal)) (x3 x4 : (⟨S4x1024x1024, .f32⟩ : BufTy).Contents (Elt Ideal))
    (x5 x6 : (⟨S4x1024, .f32⟩ : BufTy).Contents (Elt Ideal)) (r n : Fin 4096) :
    val_main_v14 (F := Ideal) x0 x1 x3 x4 x5 x6 (ix2 r n)
      = gate x0 x1 (wxFlat x3) (whFlat x4) (bxFlat x5) (bhFlat x6) r n := by
  rw [val_main_v14_apply, val_main_v6_apply, val_main_v13_apply, val_main_v2_apply, val_main_v9_apply,
    val_main_v5_apply, val_main_v4_apply, val_main_v12_apply, val_main_v11_apply]
  simp only [val_main_v1_apply, val_main_v8_apply]
  have el2 : ∀ k : Fin 1024, lidx_main_v2 (ix2 r n) k = ix2 r k := fun k => funext fun a => by
    match a with | ⟨0, _⟩ => rfl | ⟨1, _⟩ => rfl
  have er2 : ∀ k : Fin 1024, idx_main_v1 (ridx_main_v2 (ix2 r n) k) = ix2 n k := fun k => funext fun a => by
    match a with | ⟨0, _⟩ => rfl | ⟨1, _⟩ => rfl
  have el9 : ∀ k : Fin 1024, lidx_main_v9 (ix2 r n) k = ix2 r k := fun k => funext fun a => by
    match a with | ⟨0, _⟩ => rfl | ⟨1, _⟩ => rfl
  have er9 : ∀ k : Fin 1024, idx_main_v8 (ridx_main_v9 (ix2 r n) k) = ix2 n k := fun k => funext fun a => by
    match a with | ⟨0, _⟩ => rfl | ⟨1, _⟩ => rfl
  have eb5 : idx_main_v4 (idx_main_v5 (ix2 r n)) = ix1 n := funext fun a => by
    match a with | ⟨0, _⟩ => rfl
  have eb12 : idx_main_v11 (idx_main_v12 (ix2 r n)) = ix1 n := funext fun a => by
    match a with | ⟨0, _⟩ => rfl
  simp only [el2, er2, el9, er9, eb5, eb12]
  exact gate_regroup x0 x1 (wxFlat x3) (whFlat x4) (bxFlat x5) (bhFlat x6) r n

/-- Entry (r, q) of the slice [·, j, ·] of the [4096, 4, 1024] view is entry (r, 1024·j + q) of the matrix: `a` is the
    view of [4096, 1024] as [4096, 1, 1024] and `s` the slice's index map. -/
theorem gate_col (jn off : Nat) (hoff : off = jn * 1024) (hle : off + 1024 ≤ 4096)
    (a : S4096x1024.Idx → S4096x1x1024.Idx) (s : S4096x1x1024.Idx → S4096x4x1024.Idx)
    (ha : ∀ i, ((a i) 0).val = ((i 0).val * 1024 + (i 1).val) / 1024 ∧ ((a i) 1).val = 0 ∧ ((a i) 2).val = ((i 0).val * 1024 + (i 1).val) % 1024)
    (hs : ∀ i, ((s i) 0).val = (i 0).val ∧ ((s i) 1).val = jn + (i 1).val ∧ ((s i) 2).val = (i 2).val)
    (r : Fin 4096) (q : Fin 1024) :
    idx_main_v15 (s (a (ix2 r q))) = ix2 r (col off hle q) := by
  obtain ⟨a0, a1, a2⟩ := ha (ix2 r q)
  obtain ⟨s0, s1, s2⟩ := hs (a (ix2 r q))
  have hr : r.val < 4096 := r.isLt
  have hq : q.val < 1024 := q.isLt
  have a0' : ((a (ix2 r q)) 0).val = (r.val * 1024 + q.val) / 1024 := a0
  have a2' : ((a (ix2 r q)) 2).val = (r.val * 1024 + q.val) % 1024 := a2
  funext d; apply Fin.ext
  match d with
  | ⟨0, _⟩ =>
    show ((((s (a (ix2 r q))) 0).val * 4 + ((s (a (ix2 r q))) 1).val) * 1024 + ((s (a (ix2 r q))) 2).val) / 4096 = r.val
    rw [s0, s1, s2, a0', a1, a2']; omega
  | ⟨1, _⟩ =>
    show ((((s (a (ix2 r q))) 0).val * 4 + ((s (a (ix2 r q))) 1).val) * 1024 + ((s (a (ix2 r q))) 2).val) % 4096 = q.val + off
    rw [s0, s1, s2, a0', a1, a2']; omega

section
variable (x0 x1 x2 : (⟨S4096x1024, .f32⟩ : BufTy).Contents (Elt Ideal)) (x3 x4 : (⟨S4x1024x1024, .f32⟩ : BufTy).Contents (Elt Ideal))
  (x5 x6 : (⟨S4x1024, .f32⟩ : BufTy).Contents (Elt Ideal)) (r : Fin 4096) (q : Fin 1024)

/-- The input gate: the sigmoid of the pre-activation's columns 0 … 1023. -/
theorem inGate_at : val_main_v23 (F := Ideal) x0 x1 x3 x4 x5 x6 (ix2 r q)
    = Ideal.logistic (gate x0 x1 (wxFlat x3) (whFlat x4) (bxFlat x5) (bhFlat x6) r (col 0 (by omega) q)) := by
  rw [val_main_v23_apply, val_main_v22_apply, val_main_cst_0_apply, val_main_v21_apply, val_main_v20_apply, val_main_cst_apply,
    val_main_v19_apply, val_main_v18_apply, val_main_v17_apply, val_main_v16_apply, val_main_v15_apply,
    gate_col 0 0 rfl (by omega) idx_main_v17 idx_main_v16 (fun i => ⟨rfl, rfl, rfl⟩) (fun i => ⟨rfl, (Nat.zero_add _).symm, rfl⟩) r q,
    gates_at]
  show Ideal.div (Ideal.ofBits .f32 0x3F800000#32) (Ideal.ofBits .f32 0x3F800000#32 + Ideal.exp (-_)) = _
  rw [ofBits_one_f32]; rfl

/-- The forget gate: the sigmoid of columns 1024 … 2047. -/
theorem forgetGate_at : val_main_v31 (F := Ideal) x0 x1 x3 x4 x5 x6 (ix2 r q)
    = Ideal.logistic (gate x0 x1 (wxFlat x3) (whFlat x4) (bxFlat x5) (bhFlat x6) r (col 1024 (by omega) q)) := by
  rw [val_main_v31_apply, val_main_v30_apply, val_main_cst_2_apply, val_main_v29_apply, val_main_v28_apply, val_main_cst_1_apply,
    val_main_v27_apply, val_main_v26_apply, val_main_v25_apply, val_main_v24_apply, val_main_v15_apply,
    gate_col 1 1024 rfl (by omega) idx_main_v25 idx_main_v24 (fun i => ⟨rfl, rfl, rfl⟩) (fun i => ⟨rfl, rfl, rfl⟩) r q,
    gates_at]
  show Ideal.div (Ideal.ofBits .f32 0x3F800000#32) (Ideal.ofBits .f32 0x3F800000#32 + Ideal.exp (-_)) = _
  rw [ofBits_one_f32]; rfl

/-- The candidate: the hyperbolic tangent of columns 2048 … 3071. -/
theorem candidate_at : val_main_v34 (F := Ideal) x0 x1 x3 x4 x5 x6 (ix2 r q)
    = Ideal.tanh (gate x0 x1 (wxFlat x3) (whFlat x4) (bxFlat x5) (bhFlat x6) r (col 2048 (by omega) q)) := by
  rw [val_main_v34_apply, val_main_v33_apply, val_main_v32_apply, val_main_v15_apply,
    gate_col 2 2048 rfl (by omega) idx_main_v33 idx_main_v32 (fun i => ⟨rfl, rfl, rfl⟩) (fun i => ⟨rfl, rfl, rfl⟩) r q,
    gates_at]
  rfl

/-- The output gate: the sigmoid of columns 3072 … 4095. -/
theorem outGate_at : val_main_v42 (F := Ideal) x0 x1 x3 x4 x5 x6 (ix2 r q)
    = Ideal.logistic (gate x0 x1 (wxFlat x3) (whFlat x4) (bxFlat x5) (bhFlat x6) r (col 3072 (by omega) q)) := by
  rw [val_main_v42_apply, val_main_v41_apply, val_main_cst_4_apply, val_main_v40_apply, val_main_v39_apply, val_main_cst_3_apply,
    val_main_v38_apply, val_main_v37_apply, val_main_v36_apply, val_main_v35_apply, val_main_v15_apply,
    gate_col 3 3072 rfl (by omega) idx_main_v36 idx_main_v35 (fun i => ⟨rfl, rfl, rfl⟩) (fun i => ⟨rfl, rfl, rfl⟩) r q,
    gates_at]
  show Ideal.div (Ideal.ofBits .f32 0x3F800000#32) (Ideal.ofBits .f32 0x3F800000#32 + Ideal.exp (-_)) = _
  rw [ofBits_one_f32]; rfl

/-- The reference's new cell state at (r, q). -/
theorem cell_at : val_main_v45 (F := Ideal) x0 x1 x2 x3 x4 x5 x6 (ix2 r q)
    = cellNew x0 x1 x2 (wxFlat x3) (whFlat x4) (bxFlat x5) (bhFlat x6) r q := by
  rw [val_main_v45_apply, val_main_v43_apply, val_main_v44_apply, forgetGate_at, inGate_at, candidate_at]
  rfl

/-- The reference's new hidden state at (r, q). -/
theorem hidden_at : val_main_v47 (F := Ideal) x0 x1 x2 x3 x4 x5 x6 (ix2 r q)
    = hidden x0 x1 x2 (wxFlat x3) (whFlat x4) (bxFlat x5) (bhFlat x6) r q := by
  rw [val_main_v47_apply, val_main_v46_apply, outGate_at, cell_at]
  rfl

end

/-- THE REFERENCE'S RESULTS as arrays: the specification's two arrays. -/
theorem cell_eq (x0 x1 x2 : (⟨S4096x1024, .f32⟩ : BufTy).Contents (Elt Ideal)) (x3 x4 : (⟨S4x1024x1024, .f32⟩ : BufTy).Contents (Elt Ideal))
    (x5 x6 : (⟨S4x1024, .f32⟩ : BufTy).Contents (Elt Ideal)) :
    val_main_v45 (F := Ideal) x0 x1 x2 x3 x4 x5 x6 = cellNewArr x0 x1 x2 (wxFlat x3) (whFlat x4) (bxFlat x5) (bhFlat x6) := by
  funext i
  rw [eq_ix2 i]
  exact cell_at x0 x1 x2 x3 x4 x5 x6 (i 0) (i 1)

theorem hidden_eq (x0 x1 x2 : (⟨S4096x1024, .f32⟩ : BufTy).Contents (Elt Ideal)) (x3 x4 : (⟨S4x1024x1024, .f32⟩ : BufTy).Contents (Elt Ideal))
    (x5 x6 : (⟨S4x1024, .f32⟩ : BufTy).Contents (Elt Ideal)) :
    val_main_v47 (F := Ideal) x0 x1 x2 x3 x4 x5 x6 = hiddenArr x0 x1 x2 (wxFlat x3) (whFlat x4) (bxFlat x5) (bhFlat x6) := by
  funext i
  rw [eq_ix2 i]
  exact hidden_at x0 x1 x2 x3 x4 x5 x6 (i 0) (i 1)

end Cert.ReferenceIdeal.CellValue

end
-- ==== Proof.KerGate.lean ====
/-
  The kernel body's gate pre-activation, read at an index.

  The body multiplies its [128, 1024] block of x by the whole flat weight array [4096, 1024] contracting the two
  second axes, does the same for h, adds the two products, and adds the [1, 4096] bias row broadcast down the rows:
  at block row p and flat gate column n that is (Σ_k x[p,k]·wx[n,k] + Σ_k h[p,k]·wh[n,k]) + b[0,n]. A product into
  the zero accumulator is the plain sum over the contraction index; the contraction position's one coordinate is k.
-/
import proofs.«171886_j48481590837364_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.GateValue

open Cert.KernelIdeal Cert.KernelIdeal.Gen Idealize.ShloMosaic Idealize.ShloMosaic.ValueIdx

/-! ## The product's operand indices, axis by axis -/

theorem lhs_axis0 (i : S128x4096.Idx) (q : dot_S128x1024_S4096x1024_S128x4096_1_1_0_0_n_n.contr.Idx) :
    (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
theorem lhs_axis1 (i : S128x4096.Idx) (q : dot_S128x1024_S4096x1024_S128x4096_1_1_0_0_n_n.contr.Idx) :
    (dot_S128x1024_S4096x1024_S128x4096_1_1_0_0_n_n.lhsIdx i q 1).val = (q ⟨0, by decide⟩).val :=
  dot_S128x1024_S4096x1024_S128x4096_1_1_0_0_n_n.lhsIdx_val_of_single rfl i q
theorem rhs_axis0 (i : S128x4096.Idx) (q : dot_S128x1024_S4096x1024_S128x4096_1_1_0_0_n_n.contr.Idx) :
    (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
theorem rhs_axis1 (i : S128x4096.Idx) (q : dot_S128x1024_S4096x1024_S128x4096_1_1_0_0_n_n.contr.Idx) :
    (dot_S128x1024_S4096x1024_S128x4096_1_1_0_0_n_n.rhsIdx i q 1).val = (q ⟨0, by decide⟩).val :=
  dot_S128x1024_S4096x1024_S128x4096_1_1_0_0_n_n.rhsIdx_val_of_single rfl i q

/-- A block of 128 rows times the transposed flat weights, into zero: entry (p, n) is the sum over k of
    row p's entry k times weight row n's entry k. -/
theorem rows_times_weights (A : FVec Ideal S128x1024 .bf16) (W : FVec Ideal S4096x1024 .bf16) (p : Fin 128) (n : Fin 4096) :
    matmul dot_S128x1024_S4096x1024_S128x4096_1_1_0_0_n_n none A W (constant (F := Ideal) S128x4096 .f32 0x00000000#32) (ix2 p n)
      = ∑ k : Fin 1024, A (ix2 p k) * W (ix2 n k) := by
  show FloatOps.matmul _ _ A W (constant (F := Ideal) S128x4096 .f32 0x00000000#32) (ix2 p n) = _
  rw [Ideal.matmul_constant_zero_apply, ← Equiv.sum_comp (ValueIdx.contrEquiv1 dot_S128x1024_S4096x1024_S128x4096_1_1_0_0_n_n 1024 rfl rfl).symm]
  refine Finset.sum_congr rfl fun k _ => ?_
  have hk := ValueIdx.contrEquiv1_symm_val dot_S128x1024_S4096x1024_S128x4096_1_1_0_0_n_n 1024 rfl rfl k
  have el : dot_S128x1024_S4096x1024_S128x4096_1_1_0_0_n_n.lhsIdx (ix2 p n) ((ValueIdx.contrEquiv1 dot_S128x1024_S4096x1024_S128x4096_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S128x1024_S4096x1024_S128x4096_1_1_0_0_n_n.rhsIdx (ix2 p n) ((ValueIdx.contrEquiv1 dot_S128x1024_S4096x1024_S128x4096_1_1_0_0_n_n 1024 rfl rfl).symm k) = ix2 n k := funext fun a => Fin.ext (by
    match a with
    | ⟨0, _⟩ => exact rhs_axis0 _ _
    | ⟨1, _⟩ => exact (rhs_axis1 _ _).trans hk)
  rw [el, er]

/-- The bias row broadcast down the block's rows, at (p, n), is the row's entry n. -/
theorem bias_down_rows (b : FVec Ideal S1x4096 .f32) (p : Fin 128) (n : Fin 4096) :
    broadcastTo S128x4096 (shapeCast S1x4096 b shapeCasts_S1x4096_S1x4096) broadcasts_S1x4096_S128x4096 (ix2 p n)
      = b (ix2 (0 : Fin 1) n) := by
  rw [shapeCast_self]
  exact broadcastTo_apply b broadcasts_S1x4096_S128x4096 (ix2 p n) (ix2 (0 : Fin 1) n) (fun a => by
    match a with
    | ⟨0, _⟩ => rfl
    | ⟨1, _⟩ => rfl)

/-- THE PRE-ACTIVATION the body computes, at block row `p` and flat gate column `n`. -/
theorem pay1_at (v0 v2 : Vec Ideal S128x1024 .bf16) (v4 v6 : Vec Ideal S4096x1024 .bf16) (v11 : Vec Ideal S1x4096 .f32)
    (p : Fin 128) (n : Fin 4096) :
    k0_pay1 (F := Ideal) v0 v2 v4 v6 v11 (ix2 p n)
      = ((∑ k : Fin 1024, v0 (ix2 p k) * v4 (ix2 n k)) + (∑ k : Fin 1024, v2 (ix2 p k) * v6 (ix2 n k))) + v11 (ix2 (0 : Fin 1) n) := by
  unfold k0_pay1
  show (matmul dot_S128x1024_S4096x1024_S128x4096_1_1_0_0_n_n none (shapeCast S128x1024 v0 shapeCasts_S128x1024_S128x1024) (shapeCast S4096x1024 v4 shapeCasts_S4096x1024_S4096x1024) (constant (F := Ideal) S128x4096 .f32 0x00000000#32) (ix2 p n)
      + matmul dot_S128x1024_S4096x1024_S128x4096_1_1_0_0_n_n none (shapeCast S128x1024 v2 shapeCasts_S128x1024_S128x1024) (shapeCast S4096x1024 v6 shapeCasts_S4096x1024_S4096x1024) (constant (F := Ideal) S128x4096 .f32 0x00000000#32) (ix2 p n))
      + broadcastTo S128x4096 (shapeCast S1x4096 v11 shapeCasts_S1x4096_S1x4096) broadcasts_S1x4096_S128x4096 (ix2 p n) = _
  rw [shapeCast_self, shapeCast_self, shapeCast_self, shapeCast_self, rows_times_weights, rows_times_weights, bias_down_rows]

end Cert.KernelIdeal.GateValue

end
-- ==== Proof.KerArray.lean ====
/-
  The kernel's two result arrays are the cell's specification.

  Grid point t works on batch rows 128·t … 128·t + 127: it reads those rows of x, h and c, the whole flat weight arrays and
  the whole bias row, and writes those rows of the two results. What the host prepares before the call: x, h and the flat
  weights pass through a change of float format, which keeps every extended real; the bias row is the sum of the two flat
  biases, viewed as [1, 4096]. So entry (p, q) of what point t writes back is the specification at (128·t + p, q), and the
  32 points' row bands tile the 4096 rows.
-/
import proofs.«171886_j48481590837364_1_alg».proof.Proof.Gen.KernelIdeal.Value
import proofs.«171886_j48481590837364_1_alg».proof.Proof.KerGate
import proofs.«171886_j48481590837364_1_alg».proof.Proof.CellSpec
import Idealize.ShloMosaic.Lib.StableHlo.Run

set_option maxRecDepth 16384

noncomputable section

namespace Cert.KernelIdeal.CellValue

open Cert.KernelIdeal Cert.KernelIdeal.Gen Cert.KernelIdeal.Value Idealize.ShloMosaic Idealize.ShloMosaic.TcCoe Idealize.SL.Sem
open Idealize.ShloMosaic.ValueIdx Cert.LstmCell Cert.KernelIdeal.GateValue
open Idealize.ShloMosaic.Pipeline (Dat)

/-! ## One block against the arrays, over variables -/

section blocks
variable (P0 P1 : Vec Ideal S128x1024 .bf16) (P2 P3 : Vec Ideal S4096x1024 .bf16) (P4 : Vec Ideal S1x4096 .f32) (P5 : Vec Ideal S128x1024 .f32)
  (X H C WX WH : Mat) (BX BH : Row) (rowf : Fin 128 → Fin 4096)
  (h0 : ∀ (p : Fin 128) (k : Fin 1024), P0 (ix2 p k) = X (ix2 (rowf p) k))
  (h1 : ∀ (p : Fin 128) (k : Fin 1024), P1 (ix2 p k) = H (ix2 (rowf p) k))
  (h2 : ∀ (n : Fin 4096) (k : Fin 1024), P2 (ix2 n k) = WX (ix2 n k))
  (h3 : ∀ (n : Fin 4096) (k : Fin 1024), P3 (ix2 n k) = WH (ix2 n k))
  (h4 : ∀ n : Fin 4096, P4 (ix2 (0 : Fin 1) n) = BX (ix1 n) + BH (ix1 n))
  (h5 : ∀ (p : Fin 128) (q : Fin 1024), P5 (ix2 p q) = C (ix2 (rowf p) q))

include h0 h1 h2 h3 h4 in
/-- The block's pre-activation at (p, n) is the arrays' at (rowf p, n). -/
theorem gate_blk (p : Fin 128) (n : Fin 4096) :
    k0_pay1 (F := Ideal) P0 P1 P2 P3 P4 (ix2 p n) = gate X H WX WH BX BH (rowf p) n := by
  rw [pay1_at]
  simp only [h0, h1, h2, h3, h4]
  rfl

include h0 h1 h2 h3 h4 h5 in
/-- The block of new cell states at (p, q) is the specification at (rowf p, q). -/
theorem cell_blk (p : Fin 128) (q : Fin 1024) :
    E7 (F := Ideal) P0 P1 P2 P3 P4 P5 (ix2 p q) = cellNew X H C WX WH BX BH (rowf p) q := by
  have e0 : ix7_0 (ix2 p q) = ix2 p (col 1024 (by omega) q) := funext fun a => by match a with | ⟨0, _⟩ => rfl | ⟨1, _⟩ => rfl
  have e1 : ix7_1 (ix2 p q) = ix2 p q := funext fun a => by match a with | ⟨0, _⟩ => rfl | ⟨1, _⟩ => rfl
  have e2 : ix7_2 (ix2 p q) = ix2 p (col 0 (by omega) q) := funext fun a => by match a with | ⟨0, _⟩ => rfl | ⟨1, _⟩ => rfl
  have e3 : ix7_3 (ix2 p q) = ix2 p (col 2048 (by omega) q) := funext fun a => by match a with | ⟨0, _⟩ => rfl | ⟨1, _⟩ => rfl
  show (Ideal.logistic (k0_pay1 (F := Ideal) P0 P1 P2 P3 P4 (ix7_0 (ix2 p q))) * P5 (ix7_1 (ix2 p q))
      + Ideal.logistic (k0_pay1 (F := Ideal) P0 P1 P2 P3 P4 (ix7_2 (ix2 p q))) * Ideal.tanh (k0_pay1 (F := Ideal) P0 P1 P2 P3 P4 (ix7_3 (ix2 p q))) : EReal) = _
  rw [e0, e1, e2, e3, gate_blk P0 P1 P2 P3 P4 X H WX WH BX BH rowf h0 h1 h2 h3 h4, gate_blk P0 P1 P2 P3 P4 X H WX WH BX BH rowf h0 h1 h2 h3 h4,
    gate_blk P0 P1 P2 P3 P4 X H WX WH BX BH rowf h0 h1 h2 h3 h4, h5]
  rfl

include h0 h1 h2 h3 h4 h5 in
/-- The block of new hidden states at (p, q) is the specification at (rowf p, q). -/
theorem hidden_blk (p : Fin 128) (q : Fin 1024) :
    E6 (F := Ideal) P0 P1 P2 P3 P4 P5 (ix2 p q) = hidden X H C WX WH BX BH (rowf p) q := by
  have e0 : ix6_0 (ix2 p q) = ix2 p (col 3072 (by omega) q) := funext fun a => by match a with | ⟨0, _⟩ => rfl | ⟨1, _⟩ => rfl
  have e1 : ix6_1 (ix2 p q) = ix2 p (col 1024 (by omega) q) := funext fun a => by match a with | ⟨0, _⟩ => rfl | ⟨1, _⟩ => rfl
  have e2 : ix6_2 (ix2 p q) = ix2 p q := funext fun a => by match a with | ⟨0, _⟩ => rfl | ⟨1, _⟩ => rfl
  have e3 : ix6_3 (ix2 p q) = ix2 p (col 0 (by omega) q) := funext fun a => by match a with | ⟨0, _⟩ => rfl | ⟨1, _⟩ => rfl
  have e4 : ix6_4 (ix2 p q) = ix2 p (col 2048 (by omega) q) := funext fun a => by match a with | ⟨0, _⟩ => rfl | ⟨1, _⟩ => rfl
  show (Ideal.logistic (k0_pay1 (F := Ideal) P0 P1 P2 P3 P4 (ix6_0 (ix2 p q)))
      * Ideal.tanh (Ideal.logistic (k0_pay1 (F := Ideal) P0 P1 P2 P3 P4 (ix6_1 (ix2 p q))) * P5 (ix6_2 (ix2 p q))
        + Ideal.logistic (k0_pay1 (F := Ideal) P0 P1 P2 P3 P4 (ix6_3 (ix2 p q))) * Ideal.tanh (k0_pay1 (F := Ideal) P0 P1 P2 P3 P4 (ix6_4 (ix2 p q)))) : EReal) = _
  rw [e0, e1, e2, e3, e4, gate_blk P0 P1 P2 P3 P4 X H WX WH BX BH rowf h0 h1 h2 h3 h4, gate_blk P0 P1 P2 P3 P4 X H WX WH BX BH rowf h0 h1 h2 h3 h4,
    gate_blk P0 P1 P2 P3 P4 X H WX WH BX BH rowf h0 h1 h2 h3 h4, gate_blk P0 P1 P2 P3 P4 X H WX WH BX BH rowf h0 h1 h2 h3 h4, h5]
  rfl

end blocks

/-! ## The arrays the region finds -/

variable (m : (ℓ : Loc nD τ sig) → Buf (Elt Ideal) ℓ) (ρ : Dev nD → PrngReg)

/-- The inputs as launched, the stacked weights and biases laid flat. -/
abbrev xArr (c : Dev nD) : Mat := m ((c : Thread nD τ).loc main_arg0)
abbrev hArr (c : Dev nD) : Mat := m ((c : Thread nD τ).loc main_arg1)
abbrev cArr (c : Dev nD) : Mat := m ((c : Thread nD τ).loc main_arg2)
abbrev wxArr (c : Dev nD) : Mat := shapeCast S4096x1024 (m ((c : Thread nD τ).loc main_arg3)) shapeCasts_S4x1024x1024_S4096x1024
abbrev whArr (c : Dev nD) : Mat := shapeCast S4096x1024 (m ((c : Thread nD τ).loc main_arg4)) shapeCasts_S4x1024x1024_S4096x1024
abbrev bxArr (c : Dev nD) : Row := shapeCast S4096 (m ((c : Thread nD τ).loc main_arg5)) shapeCasts_S4x1024_S4096
abbrev bhArr (c : Dev nD) : Row := shapeCast S4096 (m ((c : Thread nD τ).loc main_arg6)) shapeCasts_S4x1024_S4096

/-- What the host prepares: the change of float format keeps every extended real. -/
theorem V_x (c : Dev nD) : (V m c main_v6 : S4096x1024.Idx → EReal) = xArr m c := by
  dsimp only [V, hostOps0]; after_results; rfl
theorem V_h (c : Dev nD) : (V m c main_v7 : S4096x1024.Idx → EReal) = hArr m c := by
  dsimp only [V, hostOps0]; after_results; rfl
theorem V_wx (c : Dev nD) : (V m c main_v8 : S4096x1024.Idx → EReal) = wxArr m c := by
  dsimp only [V, hostOps0]; after_results; rfl
theorem V_wh (c : Dev nD) : (V m c main_v9 : S4096x1024.Idx → EReal) = whArr m c := by
  dsimp only [V, hostOps0]; after_results; rfl
/-- The bias row is the sum of the flat biases viewed as [1, 4096]. -/
theorem V_b (c : Dev nD) : (V m c main_v5 : S1x4096.Idx → EReal)
    = shapeCast S1x4096 (addf (F := Ideal) (φ := .f32) (bxArr m c) (bhArr m c)) shapeCasts_S4096_S1x4096 := by
  dsimp only [V, hostOps0]; after_results; rfl

/-! ## What each point reads -/

/-- The printed index maps over the 32 points: the row-banded windows sit at band t, the whole-array windows at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 32 := lt_of_lt_of_eq t.isLt N_0

/-- Batch row 128·t + p: row p of point t's band. -/
def rowOf (t : Fin cfg0.N) (p : Fin 128) : Fin 4096 :=
  ⟨t.val * 128 + p.val, by have := point_lt t; have := p.isLt; omega⟩

/-- The input blocks at point t, by their literal types. -/
abbrev xBlk (c : Dev nD) (t : Fin cfg0.N) : Vec Ideal S128x1024 .bf16 := iblk m c 0 t
abbrev hBlk (c : Dev nD) (t : Fin cfg0.N) : Vec Ideal S128x1024 .bf16 := iblk m c 1 t
abbrev wxBlk (c : Dev nD) (t : Fin cfg0.N) : Vec Ideal S4096x1024 .bf16 := iblk m c 2 t
abbrev whBlk (c : Dev nD) (t : Fin cfg0.N) : Vec Ideal S4096x1024 .bf16 := iblk m c 3 t
abbrev bBlk (c : Dev nD) (t : Fin cfg0.N) : Vec Ideal S1x4096 .f32 := iblk m c 4 t
abbrev cBlk (c : Dev nD) (t : Fin cfg0.N) : Vec Ideal S128x1024 .f32 := iblk m c 5 t

theorem xBlk_at (c : Dev nD) (t : Fin cfg0.N) (p : Fin 128) (k : Fin 1024) :
    xBlk m c t (ix2 p k) = xArr m c (ix2 (rowOf t p) k) := by
  obtain ⟨e0, e1, -⟩ := idx_facts t
  show V m c main_v6 (((cfg0.win 0).blk t).view.emb (ix2 p k)) = _
  rw [V_x]
  refine congrArg (xArr m c) (funext fun a => Fin.ext ?_)
  match a with
  | ⟨0, _⟩ => show win0_0.index t (0 : Fin 2) * 128 + 1 * p.val = t.val * 128 + p.val; rw [e0]; omega
  | ⟨1, _⟩ => show win0_0.index t (1 : Fin 2) * 1024 + 1 * k.val = k.val; rw [e1]; omega

theorem hBlk_at (c : Dev nD) (t : Fin cfg0.N) (p : Fin 128) (k : Fin 1024) :
    hBlk m c t (ix2 p k) = hArr m c (ix2 (rowOf t p) k) := by
  obtain ⟨-, -, e0, e1, -⟩ := idx_facts t
  show V m c main_v7 (((cfg0.win 1).blk t).view.emb (ix2 p k)) = _
  rw [V_h]
  refine congrArg (hArr m c) (funext fun a => Fin.ext ?_)
  match a with
  | ⟨0, _⟩ => show win0_1.index t (0 : Fin 2) * 128 + 1 * p.val = t.val * 128 + p.val; rw [e0]; omega
  | ⟨1, _⟩ => show win0_1.index t (1 : Fin 2) * 1024 + 1 * k.val = k.val; rw [e1]; omega

theorem wxBlk_at (c : Dev nD) (t : Fin cfg0.N) (n : Fin 4096) (k : Fin 1024) :
    wxBlk m c t (ix2 n k) = wxArr m c (ix2 n k) := by
  obtain ⟨-, -, -, -, e0, e1, -⟩ := idx_facts t
  show V m c main_v8 (((cfg0.win 2).blk t).view.emb (ix2 n k)) = _
  rw [V_wx]
  refine congrArg (wxArr m c) (funext fun a => Fin.ext ?_)
  match a with
  | ⟨0, _⟩ => show win0_2.index t (0 : Fin 2) * 4096 + 1 * n.val = n.val; rw [e0]; omega
  | ⟨1, _⟩ => show win0_2.index t (1 : Fin 2) * 1024 + 1 * k.val = k.val; rw [e1]; omega

theorem whBlk_at (c : Dev nD) (t : Fin cfg0.N) (n : Fin 4096) (k : Fin 1024) :
    whBlk m c t (ix2 n k) = whArr m c (ix2 n k) := by
  obtain ⟨-, -, -, -, -, -, e0, e1, -⟩ := idx_facts t
  show V m c main_v9 (((cfg0.win 3).blk t).view.emb (ix2 n k)) = _
  rw [V_wh]
  refine congrArg (whArr m c) (funext fun a => Fin.ext ?_)
  match a with
  | ⟨0, _⟩ => show win0_3.index t (0 : Fin 2) * 4096 + 1 * n.val = n.val; rw [e0]; omega
  | ⟨1, _⟩ => show win0_3.index t (1 : Fin 2) * 1024 + 1 * k.val = k.val; rw [e1]; omega

theorem bBlk_at (c : Dev nD) (t : Fin cfg0.N) (n : Fin 4096) :
    bBlk m c t (ix2 (0 : Fin 1) n) = bxArr m c (ix1 n) + bhArr m c (ix1 n) := by
  obtain ⟨-, -, -, -, -, -, -, -, e0, e1, -⟩ := idx_facts t
  show V m c main_v5 (((cfg0.win 4).blk t).view.emb (ix2 (0 : Fin 1) n)) = _
  rw [V_b]
  refine (shapeCast_apply _ shapeCasts_S4096_S1x4096 _ (ix1 n) ?_).trans rfl
  rw [Shape.rowMajor_val_one, Shape.rowMajor_val_two]
  show n.val = (win0_4.index t (0 : Fin 2) * 1 + 1 * 0) * 4096 + (win0_4.index t (1 : Fin 2) * 4096 + 1 * n.val)
  rw [e0, e1]; omega

theorem cBlk_at (c : Dev nD) (t : Fin cfg0.N) (p : Fin 128) (q : Fin 1024) :
    cBlk m c t (ix2 p q) = cArr m c (ix2 (rowOf t p) q) := by
  obtain ⟨-, -, -, -, -, -, -, -, -, -, e0, e1, -⟩ := idx_facts t
  show V m c main_arg2 (((cfg0.win 5).blk t).view.emb (ix2 p q)) = _
  rw [V_main_arg2]
  refine congrArg (cArr m c) (funext fun a => Fin.ext ?_)
  match a with
  | ⟨0, _⟩ => show win0_5.index t (0 : Fin 2) * 128 + 1 * p.val = t.val * 128 + p.val; rw [e0]; omega
  | ⟨1, _⟩ => show win0_5.index t (1 : Fin 2) * 1024 + 1 * q.val = q.val; rw [e1]; omega

/-! ## What each point writes back -/

theorem hz : (![0, 0] : Fin 2 → Nat) = fun _ => 0 := funext fun a => by fin_cases a <;> rfl

/-- The specification's arrays over the kernel's arguments. -/
abbrev cellSpec (c : Dev nD) : Mat := cellNewArr (xArr m c) (hArr m c) (cArr m c) (wxArr m c) (whArr m c) (bxArr m c) (bhArr m c)
abbrev hiddenSpec (c : Dev nD) : Mat := hiddenArr (xArr m c) (hArr m c) (cArr m c) (wxArr m c) (whArr m c) (bxArr m c) (bhArr m c)

/-- Point t writes back its band of the new cell state. -/
theorem flushed7_eq (c : Dev nD) (t : Fin cfg0.N) :
    (dats m 0 c).flushed 7 t = ((cfg0.win 7).blk t).view.read (Elt Ideal) (cellSpec m c) := by
  rw [flushed7]
  unfold out0_7
  simp only [View.ld_unit_zero (S := S128x1024) hz, View.ld_unit_zero (S := S4096x1024) hz, View.ld_unit_zero (S := S1x4096) hz]
  obtain ⟨-, -, -, -, -, -, -, -, -, -, -, -, -, -, e0, e1⟩ := idx_facts t
  funext y
  obtain ⟨p, q, rfl⟩ : ∃ (p : Fin 128) (q : Fin 1024), y = ix2 p q := ⟨y 0, y 1, eq_ix2 y⟩
  show View.canon ([⟨r0_0, k0_pay2 (F := Ideal) (xBlk m c t) (hBlk m c t) (wxBlk m c t) (whBlk m c t) (bBlk m c t) (cBlk m c t)⟩] : List (View.Piece (Elt Ideal) S128x1024 .f32)) (ix2 p q)
    = cellSpec m c (((cfg0.win 7).blk t).view.emb (ix2 p q))
  rw [canon7_eq]
  refine (cell_blk (xBlk m c t) (hBlk m c t) (wxBlk m c t) (whBlk m c t) (bBlk m c t) (cBlk m c t)
    (xArr m c) (hArr m c) (cArr m c) (wxArr m c) (whArr m c) (bxArr m c) (bhArr m c) (rowOf t)
    (xBlk_at m c t) (hBlk_at m c t) (wxBlk_at m c t) (whBlk_at m c t) (bBlk_at m c t) (cBlk_at m c t) p q).trans ?_
  have r0 : (((cfg0.win 7).blk t).view.emb (ix2 p q)) 0 = rowOf t p := Fin.ext (by
    show win0_7.index t (0 : Fin 2) * 128 + 1 * p.val = t.val * 128 + p.val; rw [e0]; omega)
  have r1 : (((cfg0.win 7).blk t).view.emb (ix2 p q)) 1 = q := Fin.ext (by
    show win0_7.index t (1 : Fin 2) * 1024 + 1 * q.val = q.val; rw [e1]; omega)
  show _ = cellNew _ _ _ _ _ _ _ ((((cfg0.win 7).blk t).view.emb (ix2 p q)) 0) ((((cfg0.win 7).blk t).view.emb (ix2 p q)) 1)
  rw [r0, r1]

/-- Point t writes back its band of the new hidden state. -/
theorem flushed6_eq (c : Dev nD) (t : Fin cfg0.N) :
    (dats m 0 c).flushed 6 t = ((cfg0.win 6).blk t).view.read (Elt Ideal) (hiddenSpec m c) := by
  rw [flushed6]
  unfold out0_6
  simp only [View.ld_unit_zero (S := S128x1024) hz, View.ld_unit_zero (S := S4096x1024) hz, View.ld_unit_zero (S := S1x4096) hz]
  obtain ⟨-, -, -, -, -, -, -, -, -, -, -, -, e0, e1, -⟩ := idx_facts t
  funext y
  obtain ⟨p, q, rfl⟩ : ∃ (p : Fin 128) (q : Fin 1024), y = ix2 p q := ⟨y 0, y 1, eq_ix2 y⟩
  show View.canon ([⟨r0_0, k0_pay3 (F := Ideal) (xBlk m c t) (hBlk m c t) (wxBlk m c t) (whBlk m c t) (bBlk m c t) (cBlk m c t)⟩] : List (View.Piece (Elt Ideal) S128x1024 .f32)) (ix2 p q)
    = hiddenSpec m c (((cfg0.win 6).blk t).view.emb (ix2 p q))
  rw [canon6_eq]
  refine (hidden_blk (xBlk m c t) (hBlk m c t) (wxBlk m c t) (whBlk m c t) (bBlk m c t) (cBlk m c t)
    (xArr m c) (hArr m c) (cArr m c) (wxArr m c) (whArr m c) (bxArr m c) (bhArr m c) (rowOf t)
    (xBlk_at m c t) (hBlk_at m c t) (wxBlk_at m c t) (whBlk_at m c t) (bBlk_at m c t) (cBlk_at m c t) p q).trans ?_
  have r0 : (((cfg0.win 6).blk t).view.emb (ix2 p q)) 0 = rowOf t p := Fin.ext (by
    show win0_6.index t (0 : Fin 2) * 128 + 1 * p.val = t.val * 128 + p.val; rw [e0]; omega)
  have r1 : (((cfg0.win 6).blk t).view.emb (ix2 p q)) 1 = q := Fin.ext (by
    show win0_6.index t (1 : Fin 2) * 1024 + 1 * q.val = q.val; rw [e1]; omega)
  show _ = hidden _ _ _ _ _ _ _ ((((cfg0.win 6).blk t).view.emb (ix2 p q)) 0) ((((cfg0.win 6).blk t).view.emb (ix2 p q)) 1)
  rw [r0, r1]

/-! ## The bands tile the rows -/

theorem mem_blk7 (t : Fin cfg0.N) (i : S4096x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v10_1).slice (win0_7.rect t)).set ↔ _
  rw [View.set_slice_whole, Rect.mem_set_unit]
  exact Iff.rfl

theorem mem_blk6 (t : Fin cfg0.N) (i : S4096x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v10_0).slice (win0_6.rect t)).set ↔ _
  rw [View.set_slice_whole, Rect.mem_set_unit]
  exact Iff.rfl

/-- Row r lies in band r / 128. -/
def bandOf (i : S4096x1024.Idx) : Fin cfg0.N :=
  ⟨(i 0).val / 128, by have h : (i 0).val < 4096 := (i 0).isLt; show (i 0).val / 128 < grid0.N; rw [N_0]; omega⟩

theorem cover7 (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  obtain ⟨-, -, -, -, -, -, -, -, -, -, -, -, -, -, e0, e1⟩ := idx_facts (bandOf i)
  have e0' : win0_7.index (bandOf i) (0 : Fin 2) = (i 0).val / 128 := e0
  refine ⟨bandOf i, flush0_7 _, ?_⟩
  rw [mem_blk7]
  intro a
  match a with
  | ⟨0, _⟩ => show win0_7.index (bandOf i) (0 : Fin 2) * 128 ≤ (i 0).val ∧ (i 0).val < win0_7.index (bandOf i) (0 : Fin 2) * 128 + 128; rw [e0']; omega
  | ⟨1, _⟩ => show win0_7.index (bandOf i) (1 : Fin 2) * 1024 ≤ (i 1).val ∧ (i 1).val < win0_7.index (bandOf i) (1 : Fin 2) * 1024 + 1024; rw [e1]; omega

theorem cover6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  obtain ⟨-, -, -, -, -, -, -, -, -, -, -, -, e0, e1, -⟩ := idx_facts (bandOf i)
  have e0' : win0_6.index (bandOf i) (0 : Fin 2) = (i 0).val / 128 := e0
  refine ⟨bandOf i, flush0_6 _, ?_⟩
  rw [mem_blk6]
  intro a
  match a with
  | ⟨0, _⟩ => show win0_6.index (bandOf i) (0 : Fin 2) * 128 ≤ (i 0).val ∧ (i 0).val < win0_6.index (bandOf i) (0 : Fin 2) * 128 + 128; rw [e0']; omega
  | ⟨1, _⟩ => show win0_6.index (bandOf i) (1 : Fin 2) * 1024 ≤ (i 1).val ∧ (i 1).val < win0_6.index (bandOf i) (1 : Fin 2) * 1024 + 1024; rw [e1]; omega

/-! ## The arrays after the run, and the run -/

theorem final7 (c : Dev nD) : (dats m 0 c).arrAt 7 cfg0.N = cellSpec m c :=
  (dats m 0 c).arrAt_eq_of_cover 7 (cellSpec m c) (fun t _ => flushed7_eq m c t) cover7

theorem final6 (c : Dev nD) : (dats m 0 c).arrAt 6 cfg0.N = hiddenSpec m c :=
  (dats m 0 c).arrAt_eq_of_cover 6 (hiddenSpec m c) (fun t _ => flushed6_eq m c t) cover6

/-- Every weakly fair execution of the kernel's program ends with the two results at the specification's arrays and
    the arguments as launched. -/
theorem run : θ_run defs (onTc (τ := τ) (main (F := Ideal))) ⟨m, fun _ => 0, ρ⟩ fun r => ∀ c : Dev nD,
      r.2.mem ((c : Thread nD τ).loc main_v10_0) = hiddenSpec m c
      ∧ r.2.mem ((c : Thread nD τ).loc main_v10_1) = cellSpec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c), (h c).2.2⟩)
    (run_blocks m ρ)

end Cert.KernelIdeal.CellValue

end
-- ==== Proof.lean ====
/-
  An LSTM cell step, batch 4096, input and hidden size 1024: the tiled kernel against the plain reference.

  Both programs compute, for batch row r and hidden column q, the gate pre-activations
  Σ_k x[r,k]·Wx[j,q,k] + Σ_k h[r,k]·Wh[j,q,k] + bx[j,q] + bh[j,q] for the four gates j, then
  c' = σ(f)·c + σ(i)·tanh(g) and h' = σ(o)·tanh(c').
  The kernel works on bands of 128 batch rows; it multiplies each band by all four gates' weights at once (the stacked
  weights laid flat, contracting the second axes), adds the two products and then the sum of the two biases, and cuts
  the four gates out as column ranges. The reference multiplies the whole batch by the transposed flat weights, adds each
  bias to its own product before adding the two, and cuts the gates out of a [4096, 4, 1024] view.
  Over the extended reals the two agree entry by entry with no condition on the inputs: a product into a zero
  accumulator is the plain sum over the contraction index on both sides, the four-term sum is regrouped by
  commutativity and associativity of addition alone, a change of float format keeps the value, and the sigmoid spelt
  1 / (1 + e^(−t)) is the sigmoid (the float word of 1.0 is the real 1). The specification is Proof/CellSpec.lean; the
  reference is read against it in Proof/RefCell.lean, the kernel's body in Proof/KerGate.lean and its 32 row bands,
  which tile the 4096 rows, in Proof/KerArray.lean.
-/
import proofs.«171886_j48481590837364_1_alg».proof.Defs
import proofs.«171886_j48481590837364_1_alg».proof.Proof.Gen.Kernel
import proofs.«171886_j48481590837364_1_alg».proof.Proof.Gen.Kernel.Skeleton
import proofs.«171886_j48481590837364_1_alg».proof.Proof.Gen.Kernel.Launch
import proofs.«171886_j48481590837364_1_alg».proof.Proof.Gen.Kernel.Points
import proofs.«171886_j48481590837364_1_alg».proof.Proof.Gen.Kernel.Frame
import proofs.«171886_j48481590837364_1_alg».proof.Proof.Gen.KernelIdeal
import proofs.«171886_j48481590837364_1_alg».proof.Proof.Gen.KernelIdeal.Skeleton
import proofs.«171886_j48481590837364_1_alg».proof.Proof.Gen.KernelIdeal.Launch
import proofs.«171886_j48481590837364_1_alg».proof.Proof.Gen.KernelIdeal.Points
import proofs.«171886_j48481590837364_1_alg».proof.Proof.Gen.KernelIdeal.Frame
import proofs.«171886_j48481590837364_1_alg».proof.Proof.Gen.ReferenceIdeal
import proofs.«171886_j48481590837364_1_alg».proof.Proof.Gen.Pre_finite_inputs
import proofs.«171886_j48481590837364_1_alg».proof.Proof.Gen.KernelIdeal.Value
import proofs.«171886_j48481590837364_1_alg».proof.Proof.Gen.ReferenceIdeal.Run
import proofs.«171886_j48481590837364_1_alg».proof.Proof.Gen.ReferenceIdeal.Read
import proofs.«171886_j48481590837364_1_alg».proof.Proof.CellSpec
import proofs.«171886_j48481590837364_1_alg».proof.Proof.RefCell
import proofs.«171886_j48481590837364_1_alg».proof.Proof.KerGate
import proofs.«171886_j48481590837364_1_alg».proof.Proof.KerArray
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's run, its two results dropped
    exact fun m ρ _ => (θ_run Cert.ReferenceIdeal.defs _ _).mono (fun _ h c => (h c).2.2)
      (Cert.ReferenceIdeal.Value.run (F := Ideal) m ρ)
  · -- both runs end at the specification's two arrays of arguments that agree
    intro m ρ m' ρ' _ hagree
    refine ⟨fun c => Cert.KernelIdeal.CellValue.hiddenSpec m c, fun c => Cert.KernelIdeal.CellValue.cellSpec m c,
      Cert.KernelIdeal.CellValue.run m ρ, ?_⟩
    refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v47_eq, Cert.ReferenceIdeal.CellValue.hidden_eq,
        (hagree c).1, (hagree c).2.1, (hagree c).2.2.1, (hagree c).2.2.2.1, (hagree c).2.2.2.2.1, (hagree c).2.2.2.2.2.1, (hagree c).2.2.2.2.2.2]
      rfl
    · refine (Cert.ReferenceIdeal.Read.val_main_v45_eq _ _ _ _ _ _ _).trans ?_
      rw [Cert.ReferenceIdeal.CellValue.cell_eq,
        (hagree c).1, (hagree c).2.1, (hagree c).2.2.1, (hagree c).2.2.2.1, (hagree c).2.2.2.2.1, (hagree c).2.2.2.2.2.1, (hagree c).2.2.2.2.2.2]
      rfl⟩

end Cert.Proof

end
